-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x300000 : Shape := ⟨2, ![2, 300000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256x1 .f32) (main_arg9 : FVec F S1 .f32) (main_v33 : IVec S_ 1) : IVec S_ 1 :=
  let main_v34 : FVec F S256x1 .f32 := Host.absf main_arg8
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S256 .f32) (main_arg6 : FVec F S256 .f32) (main_arg7 : FVec F S256 .f32) (main_arg8 : FVec F S256x1 .f32) (main_arg9 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x300000 32) (main_arg2 : FVec F S256x256 .f32) (main_arg3 : FVec F S256 .f32) (main_arg4 : FVec F S256 .f32) (main_arg5 : FVec F S256 .f32) (main_arg6 : FVec F S256 .f32) (main_arg7 : FVec F S256 .f32) (main_arg8 : FVec F S256x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x300000 : Shape := ⟨2, ![2, 300000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x128 : Shape := ⟨2, ![300000, 128]⟩
abbrev S300000x256 : Shape := ⟨2, ![300000, 256]⟩
abbrev S3000x256 : Shape := ⟨2, ![3000, 256]⟩
abbrev S3000x1 : Shape := ⟨2, ![3000, 1]⟩
abbrev S1x256 : Shape := ⟨2, ![1, 256]⟩
abbrev S1x1 : Shape := ⟨2, ![1, 1]⟩

abbrev nBuf : Space → Nat
  | .hbm => 37
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S2x300000, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S1x300000, .i32⟩
  | .hbm, ⟨11, _⟩ => ⟨S300000, .i32⟩
  | .hbm, ⟨12, _⟩ => ⟨S1x300000, .i32⟩
  | .hbm, ⟨13, _⟩ => ⟨S300000, .i32⟩
  | .hbm, ⟨14, _⟩ => ⟨S_, .i32⟩
  | .hbm, ⟨15, _⟩ => ⟨S300000, .i32⟩
  | .hbm, ⟨16, _⟩ => ⟨S300000, .i1⟩
  | .hbm, ⟨17, _⟩ => ⟨S_, .i32⟩
  | .hbm, ⟨18, _⟩ => ⟨S300000, .i32⟩
  | .hbm, ⟨19, _⟩ => ⟨S300000, .i32⟩
  | .hbm, ⟨20, _⟩ => ⟨S300000, .i32⟩
  | .hbm, ⟨21, _⟩ => ⟨S300000x1, .i32⟩
  | .hbm, ⟨22, _⟩ => ⟨S300000x128, .f32⟩
  | .hbm, ⟨23, _⟩ => ⟨S_, .i32⟩
  | .hbm, ⟨24, _⟩ => ⟨S300000, .i32⟩
  | .hbm, ⟨25, _⟩ => ⟨S300000, .i1⟩
  | .hbm, ⟨26, _⟩ => ⟨S_, .i32⟩
  | .hbm, ⟨27, _⟩ => ⟨S300000, .i32⟩
  | .hbm, ⟨28, _⟩ => ⟨S300000, .i32⟩
  | .hbm, ⟨29, _⟩ => ⟨S300000, .i32⟩
  | .hbm, ⟨30, _⟩ => ⟨S300000x1, .i32⟩
  | .hbm, ⟨31, _⟩ => ⟨S300000x128, .f32⟩
  | .hbm, ⟨32, _⟩ => ⟨S300000x256, .f32⟩
  | .hbm, ⟨33, _⟩ => ⟨S256x256, .bf16⟩
  | .hbm, ⟨34, _⟩ => ⟨S256x1, .bf16⟩
  | .hbm, ⟨35, _⟩ => ⟨S300000x1, .f32⟩
  | .hbm, ⟨36, _⟩ => ⟨S300000, .f32⟩
  | .local _ .vmem, ⟨0, _⟩ => ⟨S3000x256, .f32⟩
  | .local _ .vmem, ⟨1, _⟩ => ⟨S3000x256, .f32⟩
  | .local _ .vmem, ⟨2, _⟩ => ⟨S256x256, .bf16⟩
  | .local _ .vmem, ⟨3, _⟩ => ⟨S256, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256x1, .bf16⟩
  | .local _ .vmem, ⟨9, _⟩ => ⟨S1, .f32⟩
  | .local _ .vmem, ⟨10, _⟩ => ⟨S3000x1, .f32⟩
  | .local _ .vmem, ⟨11, _⟩ => ⟨S3000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  concatenates_S300000x128_S300000x128_S300000x256_d1 : Shape.Concatenates [S300000x128, S300000x128] S300000x256 1
  bitsLt_bf16_f32 : FTy.bits .bf16 < FTy.bits .f32
  inb_S3000x256_S3000x256_0_0 : ∀ a, (![0, 0] : Fin 2 → Nat) a + S3000x256.size a ≤ S3000x256.size a
  h_S3000x256 : 0 < S3000x256.numel
  shapeCasts_S3000x256_S3000x256 : S3000x256.ShapeCasts S3000x256
  rotates_S3000x256_d1 : S3000x256.Rotates 1 none
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S256_S1x256 : S256.ShapeCasts S1x256
  broadcasts_S1x256_S3000x256 : S1x256.Broadcasts S3000x256
  shapeCasts_S1_S1x1 : S1.ShapeCasts S1x1
  broadcasts_S1x1_S3000x1 : S1x1.Broadcasts S3000x1
  inb_S3000x1_S3000x1_0_0 : ∀ a, (![0, 0] : Fin 2 → Nat) a + S3000x1.size a ≤ S3000x1.size a
  h_S3000x1 : 0 < S3000x1.numel
  shapeCasts_S300000x1_S300000 : S300000x1.ShapeCasts S300000
  gather_S50000x128_S300000x1_S300000x128_1_0_n_n_0_1_1128_wf : GatherDims.WF S50000x128 S300000x1 S300000x128 [1] [0] [] [0] [] 1 ![1, 128]
  dot_S3000x256_S256x256_S3000x256_1_0_0_1_n_n_wf : DotDims.WF S3000x256 S256x256 S3000x256 [1] [0] [0] [1] [] []
  dot_S3000x256_S256x1_S3000x1_1_0_0_1_n_n_wf : DotDims.WF S3000x256 S256x1 S3000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x256.size a ≤ S300000x256.size a
  hwx0_0 : ∀ i : grid0.Coords, EltTy.bits .f32 = 32 ∨ (Rect.block (s := S300000x256) S3000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .bf16 = 32 ∨ (Rect.block (s := S256x1) S256x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3000x1.size a ≤ S300000x1.size a
  hwx0_9 : ∀ i : grid0.Coords, EltTy.bits .f32 = 32 ∨ (Rect.block (s := S300000x1) S3000x1.size (cc0_transform_9 i) (hinb0_9 i)).WholeWords (EltTy.packing .f32)

variable [Facts₀]

def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def dot_S3000x256_S256x256_S3000x256_1_0_0_1_n_n : DotDims S3000x256 S256x256 S3000x256 where
  lhsContracting := [1]
  rhsContracting := [0]
  lhsNonContracting := [0]
  rhsNonContracting := [1]
  lhsBatch := []
  rhsBatch := []
  wf := dot_S3000x256_S256x256_S3000x256_1_0_0_1_n_n_wf
def dot_S3000x256_S256x1_S3000x1_1_0_0_1_n_n : DotDims S3000x256 S256x1 S3000x1 where
  lhsContracting := [1]
  rhsContracting := [0]
  lhsNonContracting := [0]
  rhsNonContracting := [1]
  lhsBatch := []
  rhsBatch := []
  wf := dot_S3000x256_S256x1_S3000x1_1_0_0_1_n_n_wf

abbrev win0_0 : Pipeline.Window sig grid0 :=
  Pipeline.Window.ofSpec (Memref.whole main_v18) S3000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S3000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x300000 : Shape := ⟨2, ![2, 300000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x128 : Shape := ⟨2, ![300000, 128]⟩
abbrev S300000x256 : Shape := ⟨2, ![300000, 256]⟩
abbrev S1x256 : Shape := ⟨2, ![1, 256]⟩
abbrev S1x1 : Shape := ⟨2, ![1, 1]⟩
abbrev S300000x16 : Shape := ⟨2, ![300000, 16]⟩
abbrev S300000x240 : Shape := ⟨2, ![300000, 240]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x300000, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S1x300000, .i32⟩
  | .hbm, ⟨11, _⟩ => ⟨S300000, .i32⟩
  | .hbm, ⟨12, _⟩ => ⟨S1x300000, .i32⟩
  | .hbm, ⟨13, _⟩ => ⟨S300000, .i32⟩
  | .hbm, ⟨14, _⟩ => ⟨S_, .i32⟩
  | .hbm, ⟨15, _⟩ => ⟨S300000, .i32⟩
  | .hbm, ⟨16, _⟩ => ⟨S300000, .i1⟩
  | .hbm, ⟨17, _⟩ => ⟨S_, .i32⟩
  | .hbm, ⟨18, _⟩ => ⟨S300000, .i32⟩
  | .hbm, ⟨19, _⟩ => ⟨S300000, .i32⟩
  | .hbm, ⟨20, _⟩ => ⟨S300000, .i32⟩
  | .hbm, ⟨21, _⟩ => ⟨S300000x1, .i32⟩
  | .hbm, ⟨22, _⟩ => ⟨S300000x128, .f32⟩
  | .hbm, ⟨23, _⟩ => ⟨S_, .i32⟩
  | .hbm, ⟨24, _⟩ => ⟨S300000, .i32⟩
  | .hbm, ⟨25, _⟩ => ⟨S300000, .i1⟩
  | .hbm, ⟨26, _⟩ => ⟨S_, .i32⟩
  | .hbm, ⟨27, _⟩ => ⟨S300000, .i32⟩
  | .hbm, ⟨28, _⟩ => ⟨S300000, .i32⟩
  | .hbm, ⟨29, _⟩ => ⟨S300000, .i32⟩
  | .hbm, ⟨30, _⟩ => ⟨S300000x1, .i32⟩
  | .hbm, ⟨31, _⟩ => ⟨S300000x128, .f32⟩
  | .hbm, ⟨32, _⟩ => ⟨S300000x256, .f32⟩
  | .hbm, ⟨33, _⟩ => ⟨S300000x256, .f32⟩
  | .hbm, ⟨34, _⟩ => ⟨S1x256, .f32⟩
  | .hbm, ⟨35, _⟩ => ⟨S300000x256, .f32⟩
  | .hbm, ⟨36, _⟩ => ⟨S300000x256, .f32⟩
  | .hbm, ⟨37, _⟩ => ⟨S1x256, .f32⟩
  | .hbm, ⟨38, _⟩ => ⟨S300000x256, .f32⟩
  | .hbm, ⟨39, _⟩ => ⟨S300000x256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S256, .f32⟩
  | .hbm, ⟨44, _⟩ => ⟨S1x256, .f32⟩
  | .hbm, ⟨45, _⟩ => ⟨S300000x256, .f32⟩
  | .hbm, ⟨46, _⟩ => ⟨S300000x256, .f32⟩
  | .hbm, ⟨47, _⟩ => ⟨S1x256, .f32⟩
  | .hbm, ⟨48, _⟩ => ⟨S300000x256, .f32⟩
  | .hbm, ⟨49, _⟩ => ⟨S300000x256, .f32⟩
  | .hbm, ⟨50, _⟩ => ⟨S1x256, .f32⟩
  | .hbm, ⟨51, _⟩ => ⟨S300000x256, .f32⟩
  | .hbm, ⟨52, _⟩ => ⟨S300000x256, .f32⟩
  | .hbm, ⟨53, _⟩ => ⟨S_, .f32⟩
  | .hbm, ⟨54, _⟩ => ⟨S300000x256, .f32⟩
  | .hbm, ⟨55, _⟩ => ⟨S300000x256, .f32⟩
  | .hbm, ⟨56, _⟩ => ⟨S300000x1, .f32⟩
  | .hbm, ⟨57, _⟩ => ⟨S1x1, .f32⟩
  | .hbm, ⟨58, _⟩ => ⟨S300000x1, .f32⟩
  | .hbm, ⟨59, _⟩ => ⟨S300000x1, .f32⟩
  | .hbm, ⟨60, _⟩ => ⟨S300000, .f32⟩
  | .hbm, ⟨61, _⟩ => ⟨S300000x16, .f32⟩
  | .hbm, ⟨62, _⟩ => ⟨S300000x240, .f32⟩
  | .hbm, ⟨63, _⟩ => ⟨S300000x256, .f32⟩
  | .hbm, ⟨64, _⟩ => ⟨S300000x256, .f32⟩
  | .hbm, ⟨65, _⟩ => ⟨S1x256, .f32⟩
  | .hbm, ⟨66, _⟩ => ⟨S300000x256, .f32⟩
  | .hbm, ⟨67, _⟩ => ⟨S300000x256, .f32⟩
  | .hbm, ⟨68, _⟩ => ⟨S1x256, .f32⟩
  | .hbm, ⟨69, _⟩ => ⟨S300000x256, .f32⟩
  | .hbm, ⟨70, _⟩ => ⟨S300000x256, .f32⟩
  | .hbm, ⟨71, _⟩ => ⟨S_, .f32⟩
  | .hbm, ⟨72, _⟩ => ⟨S256, .f32⟩
  | .hbm, ⟨73, _⟩ => ⟨S256, .f32⟩
  | .hbm, ⟨74, _⟩ => ⟨S256, .f32⟩
  | .hbm, ⟨75, _⟩ => ⟨S1x256, .f32⟩
  | .hbm, ⟨76, _⟩ => ⟨S300000x256, .f32⟩
  | .hbm, ⟨77, _⟩ => ⟨S300000x256, .f32⟩
  | .hbm, ⟨78, _⟩ => ⟨S1x256, .f32⟩
  | .hbm, ⟨79, _⟩ => ⟨S300000x256, .f32⟩
  | .hbm, ⟨80, _⟩ => ⟨S300000x256, .f32⟩
  | .hbm, ⟨81, _⟩ => ⟨S1x256, .f32⟩
  | .hbm, ⟨82, _⟩ => ⟨S300000x256, .f32⟩
  | .hbm, ⟨83, _⟩ => ⟨S300000x256, .f32⟩
  | .hbm, ⟨84, _⟩ => ⟨S_, .f32⟩
  | .hbm, ⟨85, _⟩ => ⟨S300000x256, .f32⟩
  | .hbm, ⟨86, _⟩ => ⟨S300000x256, .f32⟩
  | .hbm, ⟨87, _⟩ => ⟨S300000x1, .f32⟩
  | .hbm, ⟨88, _⟩ => ⟨S1x1, .f32⟩
  | .hbm, ⟨89, _⟩ => ⟨S300000x1, .f32⟩
  | .hbm, ⟨90, _⟩ => ⟨S300000x1, .f32⟩
  | .hbm, ⟨91, _⟩ => ⟨S300000, .f32⟩
  | .hbm, ⟨92, _⟩ => ⟨S300000, .f32⟩
  | .hbm, ⟨93, _⟩ => ⟨S_, .f32⟩
  | .hbm, ⟨94, _⟩ => ⟨S300000, .f32⟩
  | .hbm, ⟨95, _⟩ => ⟨S300000, .f32⟩
  | .hbm, ⟨96, _⟩ => ⟨S300000, .f32⟩
  | .hbm, ⟨97, _⟩ => ⟨S300000, .f32⟩
  | .hbm, ⟨98, _⟩ => ⟨S_, .f32⟩
  | .hbm, ⟨99, _⟩ => ⟨S300000, .f32⟩
  | .hbm, ⟨100, _⟩ => ⟨S300000, .f32⟩
  | .hbm, ⟨101, _⟩ => ⟨S_, .f32⟩
  | .hbm, ⟨102, _⟩ => ⟨S300000, .f32⟩
  | .hbm, ⟨103, _⟩ => ⟨S300000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_cst : Ref sig .tc := ⟨.hbm, 53, rfl⟩
abbrev main_call0_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call1_v0 : Ref sig .tc := ⟨.hbm, 61, rfl⟩
abbrev main_call1_v1 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_3 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_call2_cst : Ref sig .tc := ⟨.hbm, 84, rfl⟩
abbrev main_call2_v0 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_4 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_5 : Ref sig .tc := ⟨.hbm, 98, rfl⟩
abbrev main_v75 : Ref sig .tc := ⟨.hbm, 99, rfl⟩
abbrev main_v76 : Ref sig .tc := ⟨.hbm, 100, rfl⟩
abbrev main_cst_6 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  concatenates_S300000x128_S300000x128_S300000x256_d1 : Shape.Concatenates [S300000x128, S300000x128] S300000x256 1
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  bcast_S_S256 : S_.BroadcastsInDim S256 (![] : Fin 0 → Fin S256.rank)
  bcast_S_S300000x256 : S_.BroadcastsInDim S300000x256 (![] : Fin 0 → Fin S300000x256.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  shapeCasts_S300000x1_S300000 : S300000x1.ShapeCasts S300000
  slices_S300000x256_S300000x16_0_240 : S300000x256.Slices ![0, 240] S300000x16
  slices_S300000x256_S300000x240_0_0 : S300000x256.Slices ![0, 0] S300000x240
  concatenates_S300000x16_S300000x240_S300000x256_d1 : Shape.Concatenates [S300000x16, S300000x240] S300000x256 1
  gather_S50000x128_S300000x1_S300000x128_1_0_n_n_0_1_1128_wf : GatherDims.WF S50000x128 S300000x1 S300000x128 [1] [0] [] [0] [] 1 ![1, 128]
  dot_S300000x256_S256x256_S300000x256_1_0_0_1_n_n_wf : DotDims.WF S300000x256 S256x256 S300000x256 [1] [0] [0] [1] [] []
  dot_S300000x256_S256x1_S300000x1_1_0_0_1_n_n_wf : DotDims.WF S300000x256 S256x1 S300000x1 [1] [0] [0] [1] [] []

variable [Facts₀]

def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def dot_S300000x256_S256x256_S300000x256_1_0_0_1_n_n : DotDims S300000x256 S256x256 S300000x256 where
  lhsContracting := [1]
  rhsContracting := [0]
  lhsNonContracting := [0]
  rhsNonContracting := [1]
  lhsBatch := []
  rhsBatch := []
  wf := dot_S300000x256_S256x256_S300000x256_1_0_0_1_n_n_wf
def dot_S300000x256_S256x1_S300000x1_1_0_0_1_n_n : DotDims S300000x256 S256x1 S300000x1 where
  lhsContracting := [1]
  rhsContracting := [0]
  lhsNonContracting := [0]
  rhsNonContracting := [1]
  lhsBatch := []
  rhsBatch := []
  wf := dot_S300000x256_S256x1_S300000x1_1_0_0_1_n_n_wf

class Facts : Prop extends Facts₀ where

variable [Facts]
-- ==== Proof.EdgeMlp.lean ====
/-
  The value both programs compute for one edge, as a function of that edge's 256 features
  (the two endpoint rows side by side) and of the layer's parameters, on the extended reals.

  For a feature row y the score is
      s(y) = Σ_j max(((((Σ_k y_k · W1[k,j]) + b1_j) − μ_j) · rsqrt(var_j + ε)) · γ_j + β_j, 0) · W2[j,0] + b2_0 ,
  and the edge's output is  logistic((s(y) + s(roll y)) · ½),  where (roll y)_k = y_{(k − 16) mod 256}.
  The literals ε, 0 and ½ stay the binary words both programs carry; nothing here evaluates them.
-/
import Idealize.ShloMosaic.PureOps.Ideal
import Idealize.ShloMosaic.Lib.ValueIdx

noncomputable section

namespace Cert.EdgeMlp

open Idealize.ShloMosaic Idealize.ShloMosaic.ValueIdx

/-- The layer's parameters: the first weight matrix and bias, the batch-norm scale, shift, running mean and
    running variance, the second weight column and its bias. -/
structure Params where
  W1 : (⟨2, ![256, 256]⟩ : Shape).Idx → EReal
  b1 : (⟨1, ![256]⟩ : Shape).Idx → EReal
  gamma : (⟨1, ![256]⟩ : Shape).Idx → EReal
  beta : (⟨1, ![256]⟩ : Shape).Idx → EReal
  mean : (⟨1, ![256]⟩ : Shape).Idx → EReal
  var : (⟨1, ![256]⟩ : Shape).Idx → EReal
  W2 : (⟨2, ![256, 1]⟩ : Shape).Idx → EReal
  b2 : (⟨1, ![1]⟩ : Shape).Idx → EReal

/-- Hidden unit j on the feature row y: affine, normalised by the running statistics, scaled, shifted, clipped below at zero. -/
def hidden (P : Params) (y : Fin 256 → EReal) (j : Fin 256) : EReal :=
  max ((((((∑ k : Fin 256, y k * P.W1 (ix2 k j)) + P.b1 (ix1 j)) - P.mean (ix1 j))
      * Ideal.rsqrt (P.var (ix1 j) + Ideal.ofBits .f32 0x3727C5AC#32)) * P.gamma (ix1 j)) + P.beta (ix1 j))
    (Ideal.ofBits .f32 0x00000000#32)

/-- The score of a feature row: the hidden units against the second weight column, plus its bias. -/
def score (P : Params) (y : Fin 256 → EReal) : EReal :=
  (∑ j : Fin 256, hidden P y j * P.W2 (ix2 j (0 : Fin 1))) + P.b2 (ix1 (0 : Fin 1))

/-- The column a roll by 16 along the 256 features brings to column k: (k − 16) mod 256. -/
def rollCol (k : Fin 256) : Fin 256 := ⟨(k.val + 256 - 16) % 256, Nat.mod_lt _ (by decide)⟩

/-- The edge's output: the logistic of the mean of the row's score and the rolled row's score. -/
def edgeProb (P : Params) (y : Fin 256 → EReal) : EReal :=
  Ideal.logistic ((score P y + score P (fun k => y (rollCol k))) * Ideal.ofBits .f32 0x3F000000#32)

end Cert.EdgeMlp

end
-- ==== Proof.KernelBlock.lean ====
/-
  One grid point of the kernel, read at a row: what the body leaves in the output block at row p is the
  edge value of the input block's row p under the parameters the body loaded.
-/
import proofs.«131921_j90649579749888_1_alg».proof.Proof.Gen.KernelIdeal.Frame
import proofs.«131921_j90649579749888_1_alg».proof.Proof.EdgeMlp
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.Block

open Idealize.ShloMosaic Idealize.ShloMosaic.TcCoe Idealize.ShloMosaic.ValueIdx
open Cert.KernelIdeal Cert.KernelIdeal.Gen

/-! ## The two products, read at an entry -/

/-- In the first product (block × first weight matrix) the left factor's index keeps the result's row … -/
theorem lhs_mm1_0 (i : S3000x256.Idx) (q : dot_S3000x256_S256x256_S3000x256_1_0_0_1_n_n.contr.Idx) :
    (dot_S3000x256_S256x256_S3000x256_1_0_0_1_n_n.lhsIdx i q 0).val = (i 0).val := by
  unfold DotDims.lhsIdx
  rw [dif_neg (show ¬(0 : Fin S3000x256.rank) ∈ dot_S3000x256_S256x256_S3000x256_1_0_0_1_n_n.lhsBatch by decide), dif_pos (show (0 : Fin S3000x256.rank) ∈ dot_S3000x256_S256x256_S3000x256_1_0_0_1_n_n.lhsNonContracting by decide)]
  rfl
/-- … and has the summation position as its column; -/
theorem lhs_mm1_1 (i : S3000x256.Idx) (q : dot_S3000x256_S256x256_S3000x256_1_0_0_1_n_n.contr.Idx) :
    (dot_S3000x256_S256x256_S3000x256_1_0_0_1_n_n.lhsIdx i q 1).val = (q ⟨0, by decide⟩).val :=
  dot_S3000x256_S256x256_S3000x256_1_0_0_1_n_n.lhsIdx_val_of_single rfl i q
/-- the right factor's index has the summation position as its row … -/
theorem rhs_mm1_0 (i : S3000x256.Idx) (q : dot_S3000x256_S256x256_S3000x256_1_0_0_1_n_n.contr.Idx) :
    (dot_S3000x256_S256x256_S3000x256_1_0_0_1_n_n.rhsIdx i q 0).val = (q ⟨0, by decide⟩).val :=
  dot_S3000x256_S256x256_S3000x256_1_0_0_1_n_n.rhsIdx_val_of_single rfl i q
/-- … and keeps the result's column. -/
theorem rhs_mm1_1 (i : S3000x256.Idx) (q : dot_S3000x256_S256x256_S3000x256_1_0_0_1_n_n.contr.Idx) :
    (dot_S3000x256_S256x256_S3000x256_1_0_0_1_n_n.rhsIdx i q 1).val = (i 1).val := by
  unfold DotDims.rhsIdx
  rw [dif_neg (show ¬(1 : Fin S256x256.rank) ∈ dot_S3000x256_S256x256_S3000x256_1_0_0_1_n_n.rhsBatch by decide), dif_pos (show (1 : Fin S256x256.rank) ∈ dot_S3000x256_S256x256_S3000x256_1_0_0_1_n_n.rhsNonContracting by decide)]
  rfl

/-- The first product into a zero accumulator, at row p and column j: row p of the block against column j of the weights. -/
theorem mm1_apply (a : FVec Ideal S3000x256 .bf16) (b : FVec Ideal S256x256 .bf16) (p : Fin 3000) (j : Fin 256) :
    matmul dot_S3000x256_S256x256_S3000x256_1_0_0_1_n_n none a b (constant (F := Ideal) S3000x256 .f32 0x00000000#32) (ix2 p j)
      = ∑ k : Fin 256, a (ix2 p k) * b (ix2 k j) := by
  show FloatOps.matmul dot_S3000x256_S256x256_S3000x256_1_0_0_1_n_n none a b (constant (F := Ideal) S3000x256 .f32 0x00000000#32) (ix2 p j) = _
  rw [Ideal.matmul_constant_zero_apply, ← Equiv.sum_comp (ValueIdx.contrEquiv1 dot_S3000x256_S256x256_S3000x256_1_0_0_1_n_n 256 rfl rfl).symm]
  refine Finset.sum_congr rfl fun k _ => ?_
  have hk := ValueIdx.contrEquiv1_symm_val dot_S3000x256_S256x256_S3000x256_1_0_0_1_n_n 256 rfl rfl k
  have el : dot_S3000x256_S256x256_S3000x256_1_0_0_1_n_n.lhsIdx (ix2 p j) ((ValueIdx.contrEquiv1 dot_S3000x256_S256x256_S3000x256_1_0_0_1_n_n 256 rfl rfl).symm k) = ix2 p k := funext fun a => Fin.ext (by
    match a with
    | ⟨0, _⟩ => exact lhs_mm1_0 _ _
    | ⟨1, _⟩ => exact (lhs_mm1_1 _ _).trans hk)
  have er : dot_S3000x256_S256x256_S3000x256_1_0_0_1_n_n.rhsIdx (ix2 p j) ((ValueIdx.contrEquiv1 dot_S3000x256_S256x256_S3000x256_1_0_0_1_n_n 256 rfl rfl).symm k) = ix2 k j := funext fun a => Fin.ext (by
    match a with
    | ⟨0, _⟩ => exact (rhs_mm1_0 _ _).trans hk
    | ⟨1, _⟩ => exact rhs_mm1_1 _ _)
  rw [el, er]

/-- In the second product (hidden block × second weight column) the left factor's index keeps the result's row … -/
theorem lhs_mm2_0 (i : S3000x1.Idx) (q : dot_S3000x256_S256x1_S3000x1_1_0_0_1_n_n.contr.Idx) :
    (dot_S3000x256_S256x1_S3000x1_1_0_0_1_n_n.lhsIdx i q 0).val = (i 0).val := by
  unfold DotDims.lhsIdx
  rw [dif_neg (show ¬(0 : Fin S3000x256.rank) ∈ dot_S3000x256_S256x1_S3000x1_1_0_0_1_n_n.lhsBatch by decide), dif_pos (show (0 : Fin S3000x256.rank) ∈ dot_S3000x256_S256x1_S3000x1_1_0_0_1_n_n.lhsNonContracting by decide)]
  rfl
/-- … and has the summation position as its column; -/
theorem lhs_mm2_1 (i : S3000x1.Idx) (q : dot_S3000x256_S256x1_S3000x1_1_0_0_1_n_n.contr.Idx) :
    (dot_S3000x256_S256x1_S3000x1_1_0_0_1_n_n.lhsIdx i q 1).val = (q ⟨0, by decide⟩).val :=
  dot_S3000x256_S256x1_S3000x1_1_0_0_1_n_n.lhsIdx_val_of_single rfl i q
/-- the right factor's index has the summation position as its row … -/
theorem rhs_mm2_0 (i : S3000x1.Idx) (q : dot_S3000x256_S256x1_S3000x1_1_0_0_1_n_n.contr.Idx) :
    (dot_S3000x256_S256x1_S3000x1_1_0_0_1_n_n.rhsIdx i q 0).val = (q ⟨0, by decide⟩).val :=
  dot_S3000x256_S256x1_S3000x1_1_0_0_1_n_n.rhsIdx_val_of_single rfl i q
/-- … and keeps the result's column. -/
theorem rhs_mm2_1 (i : S3000x1.Idx) (q : dot_S3000x256_S256x1_S3000x1_1_0_0_1_n_n.contr.Idx) :
    (dot_S3000x256_S256x1_S3000x1_1_0_0_1_n_n.rhsIdx i q 1).val = (i 1).val := by
  unfold DotDims.rhsIdx
  rw [dif_neg (show ¬(1 : Fin S256x1.rank) ∈ dot_S3000x256_S256x1_S3000x1_1_0_0_1_n_n.rhsBatch by decide), dif_pos (show (1 : Fin S256x1.rank) ∈ dot_S3000x256_S256x1_S3000x1_1_0_0_1_n_n.rhsNonContracting by decide)]
  rfl

/-- The second product into a zero accumulator, at row p: row p of the hidden block against the weight column. -/
theorem mm2_apply (a : FVec Ideal S3000x256 .bf16) (b : FVec Ideal S256x1 .bf16) (p : Fin 3000) (j : Fin 1) :
    matmul dot_S3000x256_S256x1_S3000x1_1_0_0_1_n_n none a b (constant (F := Ideal) S3000x1 .f32 0x00000000#32) (ix2 p j)
      = ∑ k : Fin 256, a (ix2 p k) * b (ix2 k j) := by
  show FloatOps.matmul dot_S3000x256_S256x1_S3000x1_1_0_0_1_n_n none a b (constant (F := Ideal) S3000x1 .f32 0x00000000#32) (ix2 p j) = _
  rw [Ideal.matmul_constant_zero_apply, ← Equiv.sum_comp (ValueIdx.contrEquiv1 dot_S3000x256_S256x1_S3000x1_1_0_0_1_n_n 256 rfl rfl).symm]
  refine Finset.sum_congr rfl fun k _ => ?_
  have hk := ValueIdx.contrEquiv1_symm_val dot_S3000x256_S256x1_S3000x1_1_0_0_1_n_n 256 rfl rfl k
  have el : dot_S3000x256_S256x1_S3000x1_1_0_0_1_n_n.lhsIdx (ix2 p j) ((ValueIdx.contrEquiv1 dot_S3000x256_S256x1_S3000x1_1_0_0_1_n_n 256 rfl rfl).symm k) = ix2 p k := funext fun a => Fin.ext (by
    match a with
    | ⟨0, _⟩ => exact lhs_mm2_0 _ _
    | ⟨1, _⟩ => exact (lhs_mm2_1 _ _).trans hk)
  have er : dot_S3000x256_S256x1_S3000x1_1_0_0_1_n_n.rhsIdx (ix2 p j) ((ValueIdx.contrEquiv1 dot_S3000x256_S256x1_S3000x1_1_0_0_1_n_n 256 rfl rfl).symm k) = ix2 k j := funext fun a => Fin.ext (by
    match a with
    | ⟨0, _⟩ => exact (rhs_mm2_0 _ _).trans hk
    | ⟨1, _⟩ => exact rhs_mm2_1 _ _)
  rw [el, er]

/-! ## The parameter rows broadcast over the block, and the roll -/

theorem hz2 : (![0, 0] : Fin 2 → Nat) = fun _ => 0 := funext fun a => by fin_cases a <;> rfl
theorem hz1 : (![0] : Fin 1 → Nat) = fun _ => 0 := funext fun a => by fin_cases a <;> rfl

/-- A parameter vector laid as one row and repeated down the 3000 rows reads, at (p, j), its entry j. -/
theorem rowBcast_apply (v : FVec Ideal S256 .f32) (p : Fin 3000) (j : Fin 256) :
    broadcastTo S3000x256 (shapeCast S1x256 v Facts₀.shapeCasts_S256_S1x256) Facts₀.broadcasts_S1x256_S3000x256 (ix2 p j) = v (ix1 j) :=
  (broadcastTo_1b_ab_apply _ _ p j).trans (shapeCast_a_1a_apply v _ 0 j)

/-- The one-entry bias laid as a 1×1 block and repeated down the rows reads, at (p, q), its entry. -/
theorem biasBcast_apply (v : FVec Ideal S1 .f32) (p : Fin 3000) (q : Fin 1) :
    broadcastTo S3000x1 (shapeCast S1x1 v Facts₀.shapeCasts_S1_S1x1) Facts₀.broadcasts_S1x1_S3000x1 (ix2 p q) = v (ix1 q) :=
  (broadcastTo_1b_ab_apply _ _ p q).trans (shapeCast_a_1a_apply v _ 0 q)

/-- The block rolled by 16 along its columns reads, at (p, k), the block at (p, (k − 16) mod 256). -/
theorem roll_apply (X : FVec Ideal S3000x256 .f32) (p : Fin 3000) (k : Fin 256) :
    dynamicRotate 1 16#32 none X Facts₀.rotates_S3000x256_d1 (ix2 p k) = X (ix2 p (Cert.EdgeMlp.rollCol k)) :=
  dynamicRotate_apply (1 : Fin 2) 16#32 X _ (ix2 p k) (ix2 p (Cert.EdgeMlp.rollCol k)) (fun b => by
    match b with
    | ⟨0, _⟩ => rfl
    | ⟨1, _⟩ => rfl)

/-! ## The pass on a block -/

/-- The two-layer pass on a block of 3000 feature rows: the block against the first weight matrix, plus the first
    bias, minus the running mean, times the reciprocal root, times the scale, plus the shift, clipped below at zero, then
    against the second weight column, plus the second bias. -/
def blockScore (xb : FVec Ideal S3000x256 .bf16) (w1 : FVec Ideal S256x256 .bf16) (b1 g be mu rs : FVec Ideal S256 .f32)
    (w2 : FVec Ideal S256x1 .bf16) (b2 : FVec Ideal S1 .f32) : FVec Ideal S3000x1 .f32 :=
  addf
    (matmul dot_S3000x256_S256x1_S3000x1_1_0_0_1_n_n none
      (truncf .bf16
        (maximumf
          (addf
            (mulf
              (mulf
                (subf
                  (addf (matmul dot_S3000x256_S256x256_S3000x256_1_0_0_1_n_n none xb w1 (constant S3000x256 .f32 0x00000000#32))
                    (broadcastTo S3000x256 (shapeCast S1x256 b1 Facts₀.shapeCasts_S256_S1x256) Facts₀.broadcasts_S1x256_S3000x256))
                  (broadcastTo S3000x256 (shapeCast S1x256 mu Facts₀.shapeCasts_S256_S1x256) Facts₀.broadcasts_S1x256_S3000x256))
                (broadcastTo S3000x256 (shapeCast S1x256 rs Facts₀.shapeCasts_S256_S1x256) Facts₀.broadcasts_S1x256_S3000x256))
              (broadcastTo S3000x256 (shapeCast S1x256 g Facts₀.shapeCasts_S256_S1x256) Facts₀.broadcasts_S1x256_S3000x256))
            (broadcastTo S3000x256 (shapeCast S1x256 be Facts₀.shapeCasts_S256_S1x256) Facts₀.broadcasts_S1x256_S3000x256))
          (broadcast S3000x256 (Scalar.ofBits .f32 0x00000000#32)))
        Facts₀.bitsLt_bf16_f32)
      w2 (constant S3000x1 .f32 0x00000000#32))
    (broadcastTo S3000x1 (shapeCast S1x1 b2 Facts₀.shapeCasts_S1_S1x1) Facts₀.broadcasts_S1x1_S3000x1)

/-- The body's first pass is the pass on the block as loaded. -/
theorem pay7_eq (v0 : Vec Ideal S3000x256 .f32) (v5 : Vec Ideal S256x256 .bf16) (v7 v8 v9 v10 v11 : Vec Ideal S256 .f32)
    (v15 : Vec Ideal S256x1 .bf16) (v17 : Vec Ideal S1 .f32) :
    k0_pay7 (F := Ideal) v0 v5 v7 v8 v9 v10 v11 v15 v17
      = blockScore (truncf .bf16 (k0_pay2 v0) Facts₀.bitsLt_bf16_f32) (k0_pay4 v5) v7 v8 v9 v10 (k0_pay5 v11) (k0_pay6 v15) v17 := rfl

/-- The body's stored value: the logistic of half the sum of the first pass's score and the pass on the second block. -/
theorem pay1_eq (v4 : FVec Ideal S3000x256 .bf16) (v6 : FVec Ideal S256x256 .bf16) (v7 v8 v9 v10 : Vec Ideal S256 .f32)
    (v14 : FVec Ideal S256 .f32) (v16 : FVec Ideal S256x1 .bf16) (v17 : Vec Ideal S1 .f32) (v40 : FVec Ideal S3000x1 .f32) :
    k0_pay1 (F := Ideal) v4 v6 v7 v8 v9 v10 v14 v16 v17 v40 (constant S3000x256 .f32 0x00000000#32)
      = logistic (mulf (addf v40 (blockScore v4 v6 v7 v8 v9 v10 v14 v16 v17))
          (broadcast S3000x1 (Scalar.ofBits .f32 0x3F000000#32))) := rfl

/-- The pass at row p: the score of that row, with the reciprocal root as given. -/
theorem blockScore_apply (xb : FVec Ideal S3000x256 .bf16) (w1 : FVec Ideal S256x256 .bf16) (b1 g be mu rs : FVec Ideal S256 .f32)
    (w2 : FVec Ideal S256x1 .bf16) (b2 : FVec Ideal S1 .f32) (p : Fin 3000) (q : Fin 1) :
    blockScore xb w1 b1 g be mu rs w2 b2 (ix2 p q)
      = (∑ j : Fin 256, max ((((((∑ k : Fin 256, xb (ix2 p k) * w1 (ix2 k j)) + b1 (ix1 j)) - mu (ix1 j)) * rs (ix1 j)) * g (ix1 j))
          + be (ix1 j)) (Ideal.ofBits .f32 0x00000000#32) * w2 (ix2 j q)) + b2 (ix1 q) := by
  unfold blockScore
  refine (addf_apply _ _ _).trans ?_
  rw [biasBcast_apply, mm2_apply]
  refine congrArg (· + b2 (ix1 q)) (Finset.sum_congr rfl fun j _ => congrArg (· * w2 (ix2 j q)) ?_)
  simp only [truncf_apply, maximumf_apply, addf_apply, mulf_apply, subf_apply, mm1_apply, rowBcast_apply]
  rfl

/-! ## The loaded values, and the block at a row -/

/-- A cast to the same shape leaves the block as loaded. -/
theorem pay2_eq (v0 : Vec Ideal S3000x256 .f32) : k0_pay2 (F := Ideal) v0 = v0 := shapeCast_self _ _
/-- A cast to the same shape leaves the first weight matrix as loaded. -/
theorem pay4_eq (v5 : Vec Ideal S256x256 .bf16) : k0_pay4 (F := Ideal) v5 = v5 := shapeCast_self _ _
/-- A cast to the same shape leaves the second weight column as loaded. -/
theorem pay6_eq (v15 : Vec Ideal S256x1 .bf16) : k0_pay6 (F := Ideal) v15 = v15 := shapeCast_self _ _

/-- The second block is the loaded block rolled by 16 along its columns. -/
theorem pay3_apply (v0 : Vec Ideal S3000x256 .f32) (p : Fin 3000) (k : Fin 256) :
    k0_pay3 (F := Ideal) v0 (ix2 p k) = v0 (ix2 p (Cert.EdgeMlp.rollCol k)) := by
  unfold k0_pay3
  rw [pay2_eq]
  exact roll_apply v0 p k

/-- The output block at row p (its one column q) is the edge value of row p of the feature block. -/
theorem out_apply (x0 : Vec Ideal S3000x256 .f32) (x1 : Vec Ideal S256x256 .bf16) (x2 x3 x4 x5 x6 : Vec Ideal S256 .f32)
    (x7 : Vec Ideal S256x1 .bf16) (x8 : Vec Ideal S1 .f32) (p : Fin 3000) (q : Fin 1) :
    out0_9 (F := Ideal) x0 x1 x2 x3 x4 x5 x6 x7 x8 (ix2 p q)
      = Cert.EdgeMlp.edgeProb ⟨x1, x2, x3, x4, x5, x6, x7, x8⟩ (fun k => x0 (ix2 p k)) := by
  obtain rfl : q = 0 := Subsingleton.elim _ _
  unfold out0_9
  rw [View.canon_unit_zero hz2]
  simp only [View.ld_unit_zero (S := S3000x256) hz2, View.ld_unit_zero (S := S256x256) hz2, View.ld_unit_zero (S := S256) hz1,
    View.ld_unit_zero (S := S256x1) hz2, View.ld_unit_zero (S := S1) hz1]
  rw [pay1_eq, pay7_eq, pay2_eq, pay4_eq, pay6_eq]
  show Ideal.logistic ((blockScore _ _ _ _ _ _ _ _ _ (ix2 p 0) + blockScore _ _ _ _ _ _ _ _ _ (ix2 p 0)) * Ideal.ofBits .f32 0x3F000000#32) = _
  rw [blockScore_apply, blockScore_apply]
  simp only [pay3_apply]
  rfl

end Cert.KernelIdeal.Block

end
-- ==== Proof.KernelArray.lean ====
/-
  The kernel's result array. Grid point t of the 100 reads rows 3000·t … 3000·t + 2999 of the edge-feature
  array (every other operand whole), and writes rows 3000·t … 3000·t + 2999 of the [300000, 1] output; by the
  per-row reading of one point, row e of the output ends at the edge value of row e of the features. The 100
  output blocks tile the array, so the array after the run is that function of the region's operands; the
  host's closing reshape to [300000] keeps entry e. The operands the region finds are read back to the
  program's arguments: the features are the two gathers side by side, the two weight matrices are the
  arguments themselves (a change of float format is the identity on the extended reals).
-/
import proofs.«131921_j90649579749888_1_alg».proof.Proof.Gen.KernelIdeal.Frame
import proofs.«131921_j90649579749888_1_alg».proof.Proof.KernelBlock
import proofs.«131921_j90649579749888_1_alg».proof.Proof.EdgeMlp
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Array

open Cert.KernelIdeal Cert.KernelIdeal.Gen

variable (m : (ℓ : Loc nD τ sig) → Buf (Elt Ideal) ℓ) (ρ : Dev nD → PrngReg)

/-! ## The region's operands as it finds them -/

/-- The edge features as the region finds them. -/
abbrev feats (c : Dev nD) : S300000x256.Idx → EReal := V m c main_v18

/-- The layer's parameters as the region finds them. -/
def params (c : Dev nD) : Cert.EdgeMlp.Params :=
  ⟨V m c main_v19, V m c main_arg3, V m c main_arg4, V m c main_arg5, V m c main_arg6, V m c main_arg7, V m c main_v20, V m c main_arg9⟩

/-- The output array: row e holds the edge value of row e of the features. -/
def G (c : Dev nD) : Buf (Elt Ideal) ((c : Thread nD τ).loc main_v21) :=
  fun i => Cert.EdgeMlp.edgeProb (params m c) (fun k => feats m c (ix2 (⟨(i 0).val, (i 0).isLt⟩ : Fin 300000) k))

/-! ## The index maps over the grid -/

/-- The feature window and the output window are at block (t, 0) at point t; every other window stays at block 0. -/
theorem idx_facts : ∀ t : Fin cfg0.N, win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 1) = 0 ∧ win0_6.index t (0 : Fin 1) = 0
    ∧ win0_7.index t (0 : Fin 2) = 0 ∧ win0_7.index t (1 : Fin 2) = 0 ∧ win0_8.index t (0 : Fin 1) = 0 :=
  (by decide +kernel : ∀ t : Fin grid0.N, _)

/-! ## Each window's block at a point -/

/-- Row p of the feature block at point t is row 3000·t + p of the features. -/
theorem iblk0_apply (c : Dev nD) (t : Fin cfg0.N) (p : Fin 3000) (k : Fin 256) (e : Fin 300000) (he : e.val = 3000 * t.val + p.val) :
    (iblk m c 0 t : Vec Ideal S3000x256 .f32) (ix2 p k) = feats m c (ix2 e k) := by
  obtain ⟨h0, h1, -⟩ := idx_facts t
  unfold iblk
  rw [View.read_apply]
  show V m c main_v18 _ = V m c main_v18 _
  congr 1
  funext a
  apply Fin.ext
  match a with
  | ⟨0, _⟩ => show win0_0.index t (0 : Fin 2) * 3000 + 1 * p.val = e.val; rw [h0, he]; omega
  | ⟨1, _⟩ => show win0_0.index t (1 : Fin 2) * 256 + 1 * k.val = k.val; rw [h1]; omega

theorem iblk1_eq (c : Dev nD) (t : Fin cfg0.N) : (iblk m c 1 t : Vec Ideal S256x256 .bf16) = V m c main_v19 := by
  obtain ⟨-, -, -, -, h0, h1, -⟩ := idx_facts t
  funext y
  unfold iblk
  rw [View.read_apply]
  show V m c main_v19 _ = V m c main_v19 y
  congr 1
  funext a
  apply Fin.ext
  match a with
  | ⟨0, _⟩ => show win0_1.index t (0 : Fin 2) * 256 + 1 * (y 0).val = (y 0).val; rw [h0]; omega
  | ⟨1, _⟩ => show win0_1.index t (1 : Fin 2) * 256 + 1 * (y 1).val = (y 1).val; rw [h1]; omega

theorem iblk2_eq (c : Dev nD) (t : Fin cfg0.N) : (iblk m c 2 t : Vec Ideal S256 .f32) = V m c main_arg3 := by
  obtain ⟨-, -, -, -, -, -, h0, -⟩ := idx_facts t
  funext y
  unfold iblk
  rw [View.read_apply]
  show V m c main_arg3 _ = V m c main_arg3 y
  congr 1
  funext a
  apply Fin.ext
  match a with
  | ⟨0, _⟩ => show win0_2.index t (0 : Fin 1) * 256 + 1 * (y 0).val = (y 0).val; rw [h0]; omega

theorem iblk3_eq (c : Dev nD) (t : Fin cfg0.N) : (iblk m c 3 t : Vec Ideal S256 .f32) = V m c main_arg4 := by
  obtain ⟨-, -, -, -, -, -, -, h0, -⟩ := idx_facts t
  funext y
  unfold iblk
  rw [View.read_apply]
  show V m c main_arg4 _ = V m c main_arg4 y
  congr 1
  funext a
  apply Fin.ext
  match a with
  | ⟨0, _⟩ => show win0_3.index t (0 : Fin 1) * 256 + 1 * (y 0).val = (y 0).val; rw [h0]; omega

theorem iblk4_eq (c : Dev nD) (t : Fin cfg0.N) : (iblk m c 4 t : Vec Ideal S256 .f32) = V m c main_arg5 := by
  obtain ⟨-, -, -, -, -, -, -, -, h0, -⟩ := idx_facts t
  funext y
  unfold iblk
  rw [View.read_apply]
  show V m c main_arg5 _ = V m c main_arg5 y
  congr 1
  funext a
  apply Fin.ext
  match a with
  | ⟨0, _⟩ => show win0_4.index t (0 : Fin 1) * 256 + 1 * (y 0).val = (y 0).val; rw [h0]; omega

theorem iblk5_eq (c : Dev nD) (t : Fin cfg0.N) : (iblk m c 5 t : Vec Ideal S256 .f32) = V m c main_arg6 := by
  obtain ⟨-, -, -, -, -, -, -, -, -, h0, -⟩ := idx_facts t
  funext y
  unfold iblk
  rw [View.read_apply]
  show V m c main_arg6 _ = V m c main_arg6 y
  congr 1
  funext a
  apply Fin.ext
  match a with
  | ⟨0, _⟩ => show win0_5.index t (0 : Fin 1) * 256 + 1 * (y 0).val = (y 0).val; rw [h0]; omega

theorem iblk6_eq (c : Dev nD) (t : Fin cfg0.N) : (iblk m c 6 t : Vec Ideal S256 .f32) = V m c main_arg7 := by
  obtain ⟨-, -, -, -, -, -, -, -, -, -, h0, -⟩ := idx_facts t
  funext y
  unfold iblk
  rw [View.read_apply]
  show V m c main_arg7 _ = V m c main_arg7 y
  congr 1
  funext a
  apply Fin.ext
  match a with
  | ⟨0, _⟩ => show win0_6.index t (0 : Fin 1) * 256 + 1 * (y 0).val = (y 0).val; rw [h0]; omega

theorem iblk7_eq (c : Dev nD) (t : Fin cfg0.N) : (iblk m c 7 t : Vec Ideal S256x1 .bf16) = V m c main_v20 := by
  obtain ⟨-, -, -, -, -, -, -, -, -, -, -, h0, h1, -⟩ := idx_facts t
  funext y
  unfold iblk
  rw [View.read_apply]
  show V m c main_v20 _ = V m c main_v20 y
  congr 1
  funext a
  apply Fin.ext
  match a with
  | ⟨0, _⟩ => show win0_7.index t (0 : Fin 2) * 256 + 1 * (y 0).val = (y 0).val; rw [h0]; omega
  | ⟨1, _⟩ => show win0_7.index t (1 : Fin 2) * 1 + 1 * (y 1).val = (y 1).val; rw [h1]; omega

theorem iblk8_eq (c : Dev nD) (t : Fin cfg0.N) : (iblk m c 8 t : Vec Ideal S1 .f32) = V m c main_arg9 := by
  obtain ⟨-, -, -, -, -, -, -, -, -, -, -, -, -, h0⟩ := idx_facts t
  funext y
  unfold iblk
  rw [View.read_apply]
  show V m c main_arg9 _ = V m c main_arg9 y
  congr 1
  funext a
  apply Fin.ext
  match a with
  | ⟨0, _⟩ => show win0_8.index t (0 : Fin 1) * 1 + 1 * (y 0).val = (y 0).val; rw [h0]; omega

/-- The parameters the body loads at any point are the region's. -/
theorem blockParams_eq (c : Dev nD) (t : Fin cfg0.N) :
    (⟨iblk m c 1 t, iblk m c 2 t, iblk m c 3 t, iblk m c 4 t, iblk m c 5 t, iblk m c 6 t, iblk m c 7 t, iblk m c 8 t⟩ : Cert.EdgeMlp.Params)
      = params m c := by
  unfold params
  rw [iblk1_eq m c t, iblk2_eq m c t, iblk3_eq m c t, iblk4_eq m c t, iblk5_eq m c t, iblk6_eq m c t, iblk7_eq m c t, iblk8_eq m c t]

/-! ## What a point writes back -/

/-- The body's output block at point t, read at a row, is the output function at that row of the array. -/
theorem point_apply (c : Dev nD) (t : Fin cfg0.N) (p : Fin 3000) (q : Fin 1) (i : S300000x1.Idx) (hi : (i 0).val = 3000 * t.val + p.val) :
    out0_9 (F := Ideal) (iblk m c 0 t) (iblk m c 1 t) (iblk m c 2 t) (iblk m c 3 t) (iblk m c 4 t) (iblk m c 5 t) (iblk m c 6 t) (iblk m c 7 t) (iblk m c 8 t) (ix2 p q)
      = G m c i := by
  refine (Cert.KernelIdeal.Block.out_apply (iblk m c 0 t) (iblk m c 1 t) (iblk m c 2 t) (iblk m c 3 t) (iblk m c 4 t) (iblk m c 5 t) (iblk m c 6 t) (iblk m c 7 t) (iblk m c 8 t) p q).trans ?_
  unfold G
  exact congr (congrArg Cert.EdgeMlp.edgeProb (blockParams_eq m c t)) (funext fun k => iblk0_apply m c t p k ⟨(i 0).val, (i 0).isLt⟩ hi)

/-- What point t writes back is block t of the output function. -/
theorem flushed_eq (c : Dev nD) (t : Fin cfg0.N) :
    (dats m 0 c).flushed 9 t = ((cfg0.win 9).blk t).view.read (Elt Ideal) (G m c) := by
  obtain ⟨-, -, h0, h1, -⟩ := idx_facts t
  show (cfg0.win 9).cut (grid0.coords t) ((dats m 0 c).after 9 t) = _
  rw [after0_9]
  funext j
  show out0_9 (F := Ideal) (iblk m c 0 t) (iblk m c 1 t) (iblk m c 2 t) (iblk m c 3 t) (iblk m c 4 t) (iblk m c 5 t) (iblk m c 6 t) (iblk m c 7 t) (iblk m c 8 t) j
    = G m c (((cfg0.win 9).blk t).view.emb j)
  have hj : j = ix2 (j 0) (j 1) := eq_ix2 (n0 := 3000) (n1 := 1) j
  rw [hj]
  refine point_apply m c t (j 0) (j 1) _ ?_
  show win0_9.index t (0 : Fin 2) * 3000 + 1 * (j 0).val = 3000 * t.val + (j 0).val
  rw [h0]; omega

/-! ## The array after the run -/

/-- An index of the output array is in point t's block iff each coordinate is in the block's range. -/
theorem mem_blk (t : Fin cfg0.N) (i : S300000x1.Idx) :
    i ∈ ((cfg0.win 9).blk t).view.set ↔ ∀ a : Fin 2, win0_9.index t a * S3000x1.size a ≤ (i a).val ∧ (i a).val < win0_9.index t a * S3000x1.size a + S3000x1.size a := by
  show i ∈ ((View.whole main_v21).slice (win0_9.rect t)).set ↔ _
  rw [View.set_slice_whole, Rect.mem_set_unit]
  exact Iff.rfl

/-- The 100 output blocks tile the array: after the run it holds the output function. -/
theorem final (c : Dev nD) : (dats m 0 c).arrAt 9 cfg0.N = G m c :=
  (dats m 0 c).arrAt_eq_of_cover 9 (G m c) (fun t _ => flushed_eq m c t) fun i => by
    have hi0 : (i 0).val < 300000 := (i 0).isLt
    have hi1 : (i 1).val < 1 := (i 1).isLt
    have hN : cfg0.N = 100 := N_0
    let t : Fin cfg0.N := ⟨(i 0).val / 3000, by rw [hN]; omega⟩
    obtain ⟨-, -, h0, h1, -⟩ := idx_facts t
    refine ⟨t, flush0_9 t, ?_⟩
    rw [mem_blk]
    intro a
    match a with
    | ⟨0, _⟩ =>
      show win0_9.index t (0 : Fin 2) * 3000 ≤ (i 0).val ∧ (i 0).val < win0_9.index t (0 : Fin 2) * 3000 + 3000
      rw [h0]; show (i 0).val / 3000 * 3000 ≤ (i 0).val ∧ (i 0).val < (i 0).val / 3000 * 3000 + 3000; omega
    | ⟨1, _⟩ =>
      show win0_9.index t (1 : Fin 2) * 1 ≤ (i 1).val ∧ (i 1).val < win0_9.index t (1 : Fin 2) * 1 + 1
      rw [h1]; omega

/-! ## The operands read back to the arguments -/

/-- The two gathered endpoint rows side by side, as a function of the node table and the edge list. -/
def edgeFeat {F : FTy → Type} [FloatOps F] (x0 : (⟨S50000x128, .f32⟩ : BufTy).Contents (Elt F)) (x1 : (⟨S2x300000, .i32⟩ : BufTy).Contents (Elt F)) :
    (⟨S300000x256, .f32⟩ : BufTy).Contents (Elt F) :=
  (concatenate S300000x256 1 [⟨S300000x128, (Host.gather gather_S50000x128_S300000x1_S300000x128_1_0_n_n_0_1_1128 x0 (broadcastInDim S300000x1 ![0] bcast_S300000_S300000x1_0 (select (cmpi .slt (shapeCast _ (extractStridedSlice S1x300000 ![0, 0] x1 slices_S2x300000_S1x300000_0_0) shapeCasts_S1x300000_S300000) (broadcastInDim S300000 ![] bcast_S_S300000 (constantI S_ 32 0#32))) (addi (shapeCast _ (extractStridedSlice S1x300000 ![0, 0] x1 slices_S2x300000_S1x300000_0_0) shapeCasts_S1x300000_S300000) (broadcastInDim S300000 ![] bcast_S_S300000 (constantI S_ 32 50000#32))) (shapeCast _ (extractStridedSlice S1x300000 ![0, 0] x1 slices_S2x300000_S1x300000_0_0) shapeCasts_S1x300000_S300000))))⟩, ⟨S300000x128, (Host.gather gather_S50000x128_S300000x1_S300000x128_1_0_n_n_0_1_1128 x0 (broadcastInDim S300000x1 ![0] bcast_S300000_S300000x1_0 (select (cmpi .slt (shapeCast _ (extractStridedSlice S1x300000 ![1, 0] x1 slices_S2x300000_S1x300000_1_0) shapeCasts_S1x300000_S300000) (broadcastInDim S300000 ![] bcast_S_S300000 (constantI S_ 32 0#32))) (addi (shapeCast _ (extractStridedSlice S1x300000 ![1, 0] x1 slices_S2x300000_S1x300000_1_0) shapeCasts_S1x300000_S300000) (broadcastInDim S300000 ![] bcast_S_S300000 (constantI S_ 32 50000#32))) (shapeCast _ (extractStridedSlice S1x300000 ![1, 0] x1 slices_S2x300000_S1x300000_1_0) shapeCasts_S1x300000_S300000))))⟩] concatenates_S300000x128_S300000x128_S300000x256_d1)

theorem feats_eq (c : Dev nD) : feats m c = edgeFeat (m ((c : Thread nD τ).loc main_arg0)) (m ((c : Thread nD τ).loc main_arg1)) := by
  show StableHlo.after hostOps0 (fun b => m (c, b)) (Proc.devRef .tc main_v18) = _
  unfold edgeFeat
  after_results
  rfl

theorem W1_eq (c : Dev nD) : (V m c main_v19 : S256x256.Idx → EReal) = (m ((c : Thread nD τ).loc main_arg2)) := by
  show StableHlo.after hostOps0 (fun b => m (c, b)) (Proc.devRef .tc main_v19) = _
  after_results
  rfl

theorem W2_eq (c : Dev nD) : (V m c main_v20 : S256x1.Idx → EReal) = (m ((c : Thread nD τ).loc main_arg8)) := by
  show StableHlo.after hostOps0 (fun b => m (c, b)) (Proc.devRef .tc main_v20) = _
  after_results
  rfl

/-- The layer's parameters as the program's arguments. -/
def argParams (c : Dev nD) : Cert.EdgeMlp.Params :=
  ⟨(m ((c : Thread nD τ).loc main_arg2)), (m ((c : Thread nD τ).loc main_arg3)), (m ((c : Thread nD τ).loc main_arg4)), (m ((c : Thread nD τ).loc main_arg5)), (m ((c : Thread nD τ).loc main_arg6)), (m ((c : Thread nD τ).loc main_arg7)), (m ((c : Thread nD τ).loc main_arg8)), (m ((c : Thread nD τ).loc main_arg9))⟩

theorem params_eq (c : Dev nD) : params m c = argParams m c := by
  unfold params argParams
  rw [W1_eq m c, W2_eq m c, V_main_arg3 m c, V_main_arg4 m c, V_main_arg5 m c, V_main_arg6 m c, V_main_arg7 m c, V_main_arg9 m c]

/-! ## The run -/

/-- The program's result: entry e is the edge value of the two gathered rows of edge e under the arguments' parameters. -/
def result (c : Dev nD) : Buf (Elt Ideal) ((c : Thread nD τ).loc main_v22) :=
  fun i => Cert.EdgeMlp.edgeProb (argParams m c)
    (fun k => edgeFeat (m ((c : Thread nD τ).loc main_arg0)) (m ((c : Thread nD τ).loc main_arg1)) (ix2 (⟨(i 0).val, (i 0).isLt⟩ : Fin 300000) k))

/-- A [300000, 1] array reshaped to [300000] reads, at e, the array at (e, 0). -/
theorem reshape_col (g : S300000x1.Idx → EReal) (i : S300000.Idx) :
    shapeCast S300000 g shapeCasts_S300000x1_S300000 i = g (ix2 (⟨(i 0).val, (i 0).isLt⟩ : Fin 300000) (0 : Fin 1)) :=
  shapeCast_apply g shapeCasts_S300000x1_S300000 i (ix2 (⟨(i 0).val, (i 0).isLt⟩ : Fin 300000) (0 : Fin 1)) (by
    rw [Shape.rowMajor_val_two, Shape.rowMajor_val_one]; show (i 0).val * 1 + 0 = (i 0).val; omega)

/-- The closing reshape of the output array to [300000] keeps entry e. -/
theorem tail_eq (c : Dev nD) :
    Pipeline.afterTail₀ cfgs (dats m) 0 (V0 m) [hostOps1] c main_v22 = result m c := by
  unfold Pipeline.afterTail₀
  show StableHlo.after hostOps1 _ (Proc.devRef .tc main_v22) = _
  after_results
  rw [(Pipeline.withArrays_arr spec0 launch0.win.arr_inj c _ _ 9).trans (final m c)]
  funext i
  refine (reshape_col (G m c) i).trans ?_
  unfold G result
  rw [params_eq m c, feats_eq m c]
  rfl

/-- Every weakly fair execution terminates with the result array at `result` and the arguments as launched. -/
theorem run : θ_run defs (onTc (τ := τ) (main (F := Ideal))) ⟨m, fun _ => 0, ρ⟩ fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).2 main_v22 (Pipeline.mem_restRefs_of main_v22 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      (((h c).2 main_arg8 (Pipeline.mem_restRefs_of main_arg8 (by decide) (by decide))).trans (W_main_arg8 m (dats m) c)),
      ((h c).1 8).trans (((dats m 0 c).arrAt_in 8 rfl _).trans ((A_eq m c 8).trans (V_main_arg9 m c)))⟩)
    (run_main m ρ)

end Cert.KernelIdeal.Array

end
-- ==== Proof.RefValue.lean ====
/-
  The reference's result at an edge is the edge value of that edge's feature row (the two gathered endpoint
  rows side by side) under the parameters as given.
-/
import proofs.«131921_j90649579749888_1_alg».proof.Proof.RefRun
import proofs.«131921_j90649579749888_1_alg».proof.Proof.RefRead
import proofs.«131921_j90649579749888_1_alg».proof.Proof.EdgeMlp
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.TcCoe Idealize.ShloMosaic.ValueIdx
open Cert.ReferenceIdeal Cert.ReferenceIdeal.ReadP

section Stages

variable (x0 : (⟨S50000x128, .f32⟩ : BufTy).Contents (Elt Ideal)) (x1 : (⟨S2x300000, .i32⟩ : BufTy).Contents (Elt Ideal))
  (x2 : (⟨S256x256, .f32⟩ : BufTy).Contents (Elt Ideal)) (x3 x4 x5 x6 x7 : (⟨S256, .f32⟩ : BufTy).Contents (Elt Ideal))
  (x8 : (⟨S256x1, .f32⟩ : BufTy).Contents (Elt Ideal)) (x9 : (⟨S1, .f32⟩ : BufTy).Contents (Elt Ideal))

/-- The word 0x3F800000 denotes 1. -/
theorem one_word : Ideal.ofBits .f32 0x3F800000#32 = 1 :=
  IdealRules.sign_bit.ideal_onePat .f32

/-- The rolled features at (e, k) are the features at (e, (k − 16) mod 256): columns 0..15 come from the slice of
    columns 240..255, columns 16..255 from the slice of columns 0..239. -/
theorem v44_at (e : Fin 300000) (k : Fin 256) :
    val_main_v44 (F := Ideal) x0 x1 (ix2 e k) = val_main_v18 (F := Ideal) x0 x1 (ix2 e (Cert.EdgeMlp.rollCol k)) := by
  unfold val_main_v44
  by_cases hk : k.val < 16
  · rw [concatenate_pair_apply_left (1 : Fin S300000x256.rank) _ _ Gen.concatenates_S300000x16_S300000x240_S300000x256_d1
      (ix2 e k) rfl (ix2 e ⟨k.val, hk⟩) (fun b => by match b with | ⟨0, _⟩ => rfl | ⟨1, _⟩ => rfl)]
    rw [val_main_call1_v0_apply]
    refine congrArg (val_main_v18 (F := Ideal) x0 x1) (funext fun a => Fin.ext ?_)
    match a with
    | ⟨0, _⟩ => rfl
    | ⟨1, _⟩ => show 240 + k.val = (k.val + 256 - 16) % 256; omega
  · have hk' : k.val - 16 < 240 := by omega
    rw [concatenate_pair_apply_right (1 : Fin S300000x256.rank) _ _ Gen.concatenates_S300000x16_S300000x240_S300000x256_d1
      (ix2 e k) rfl rfl (ix2 e ⟨k.val - 16, hk'⟩)
      (fun b hb => by match b, hb with | ⟨0, _⟩, _ => rfl | ⟨1, _⟩, hb => exact absurd rfl hb)
      (by show (k.val - 16) + 16 = k.val; omega)]
    rw [val_main_call1_v1_apply]
    refine congrArg (val_main_v18 (F := Ideal) x0 x1) (funext fun a => Fin.ext ?_)
    match a with
    | ⟨0, _⟩ => rfl
    | ⟨1, _⟩ => show k.val - 16 = (k.val + 256 - 16) % 256; omega

/-! ### The layer on the features -/

/-- The first product at (e, j): row e of the features against column j of the first weight matrix. -/
theorem v19_at (e : Fin 300000) (j : Fin 256) :
    val_main_v19 (F := Ideal) x0 x1 x2 (ix2 e j)
      = ∑ k : Fin 256, val_main_v18 (F := Ideal) x0 x1 (ix2 e k) * x2 (ix2 k j) := by
  rw [val_main_v19_apply]
  refine Finset.sum_congr rfl fun k _ => ?_
  have hl : lidx_main_v19 (ix2 e j) k = ix2 e k := by
    funext a; match a with | ⟨0, _⟩ => rfl | ⟨1, _⟩ => rfl
  have hr : ridx_main_v19 (ix2 e j) k = ix2 k j := by
    funext a; match a with | ⟨0, _⟩ => rfl | ⟨1, _⟩ => rfl
  rw [hl, hr]

/-- The first bias, spread over the edges, at (e, j) is its entry j. -/
theorem v21_at (e : Fin 300000) (j : Fin 256) : val_main_v21 (F := Ideal) x3 (ix2 e j) = x3 (ix1 j) := by
  rw [val_main_v21_apply, val_main_v20_apply]
  exact congrArg x3 (funext fun a => by match a with | ⟨0, _⟩ => rfl)

/-- The running mean, spread over the edges, at (e, j) is its entry j. -/
theorem v24_at (e : Fin 300000) (j : Fin 256) : val_main_v24 (F := Ideal) x6 (ix2 e j) = x6 (ix1 j) := by
  rw [val_main_v24_apply, val_main_v23_apply]
  exact congrArg x6 (funext fun a => by match a with | ⟨0, _⟩ => rfl)

/-- The normalising factor, spread over the edges, at (e, j): the reciprocal square root of variance j plus ε. -/
theorem v30_at (e : Fin 300000) (j : Fin 256) :
    val_main_v30 (F := Ideal) x7 (ix2 e j) = Ideal.rsqrt (x7 (ix1 j) + Ideal.ofBits .f32 0x3727C5AC#32) := by
  rw [val_main_v30_apply, val_main_v29_apply, val_main_v28_apply, val_main_v27_apply, val_main_v26_apply,
    val_main_cst_apply]
  have h : idx_main_v29 (idx_main_v30 (ix2 e j)) = ix1 j := funext fun a => by match a with | ⟨0, _⟩ => rfl
  rw [h]
  rfl

/-- The scale, spread over the edges, at (e, j) is its entry j. -/
theorem v33_at (e : Fin 300000) (j : Fin 256) : val_main_v33 (F := Ideal) x4 (ix2 e j) = x4 (ix1 j) := by
  rw [val_main_v33_apply, val_main_v32_apply]
  exact congrArg x4 (funext fun a => by match a with | ⟨0, _⟩ => rfl)

/-- The shift, spread over the edges, at (e, j) is its entry j. -/
theorem v36_at (e : Fin 300000) (j : Fin 256) : val_main_v36 (F := Ideal) x5 (ix2 e j) = x5 (ix1 j) := by
  rw [val_main_v36_apply, val_main_v35_apply]
  exact congrArg x5 (funext fun a => by match a with | ⟨0, _⟩ => rfl)

/-- The normalised, scaled and shifted affine image at (e, j), before clipping. -/
theorem v37_at (e : Fin 300000) (j : Fin 256) :
    val_main_v37 (F := Ideal) x0 x1 x2 x3 x4 x5 x6 x7 (ix2 e j)
      = (((((∑ k : Fin 256, val_main_v18 (F := Ideal) x0 x1 (ix2 e k) * x2 (ix2 k j)) + x3 (ix1 j)) - x6 (ix1 j))
          * Ideal.rsqrt (x7 (ix1 j) + Ideal.ofBits .f32 0x3727C5AC#32)) * x4 (ix1 j)) + x5 (ix1 j) := by
  rw [val_main_v37_apply, val_main_v34_apply, val_main_v31_apply, val_main_v25_apply, val_main_v22_apply,
    v19_at, v21_at, v24_at, v30_at, v33_at, v36_at]
  rfl

/-- The clipped value at (e, j) is hidden unit j on the features's row e. -/
theorem v38_at (e : Fin 300000) (j : Fin 256) :
    val_main_v38 (F := Ideal) x0 x1 x2 x3 x4 x5 x6 x7 (ix2 e j)
      = Cert.EdgeMlp.hidden ⟨x2, x3, x4, x5, x6, x7, x8, x9⟩ (fun k => val_main_v18 (F := Ideal) x0 x1 (ix2 e k)) j := by
  rw [val_main_v38_apply, v37_at, val_main_call0_v0_apply, val_main_call0_cst_apply]
  rfl

/-- The flattened second affine image at e is the score of the features's row e. -/
theorem v43_at (e : Fin 300000) :
    val_main_v43 (F := Ideal) x0 x1 x2 x3 x4 x5 x6 x7 x8 x9 (ix1 e)
      = Cert.EdgeMlp.score ⟨x2, x3, x4, x5, x6, x7, x8, x9⟩ (fun k => val_main_v18 (F := Ideal) x0 x1 (ix2 e k)) := by
  rw [val_main_v43_apply, val_main_v42_apply, val_main_v39_apply, val_main_v41_apply, val_main_v40_apply]
  have hb : idx_main_v40 (idx_main_v41 (idx_main_v43 (ix1 e))) = ix1 (0 : Fin 1) :=
    funext fun a => by match a with | ⟨0, _⟩ => rfl
  have hs : (∑ k : Fin 256, val_main_v38 (F := Ideal) x0 x1 x2 x3 x4 x5 x6 x7 (lidx_main_v39 (idx_main_v43 (ix1 e)) k)
        * x8 (ridx_main_v39 (idx_main_v43 (ix1 e)) k))
      = ∑ j : Fin 256, Cert.EdgeMlp.hidden ⟨x2, x3, x4, x5, x6, x7, x8, x9⟩ (fun k => val_main_v18 (F := Ideal) x0 x1 (ix2 e k)) j * x8 (ix2 j (0 : Fin 1)) := by
    refine Finset.sum_congr rfl fun k _ => ?_
    have hl : lidx_main_v39 (idx_main_v43 (ix1 e)) k = ix2 e k := by
      funext a; match a with | ⟨0, _⟩ => exact Fin.ext (Nat.div_one _) | ⟨1, _⟩ => rfl
    have hr : ridx_main_v39 (idx_main_v43 (ix1 e)) k = ix2 k (0 : Fin 1) := by
      funext a; match a with | ⟨0, _⟩ => rfl | ⟨1, _⟩ => rfl
    rw [hl, hr, v38_at x0 x1 x2 x3 x4 x5 x6 x7 x8 x9]
  rw [hs, hb]
  rfl

/-! ### The layer on the rolled features -/

/-- The first product at (e, j): row e of the rolled features against column j of the first weight matrix. -/
theorem v45_at (e : Fin 300000) (j : Fin 256) :
    val_main_v45 (F := Ideal) x0 x1 x2 (ix2 e j)
      = ∑ k : Fin 256, val_main_v18 (F := Ideal) x0 x1 (ix2 e (Cert.EdgeMlp.rollCol k)) * x2 (ix2 k j) := by
  rw [val_main_v45_apply]
  refine Finset.sum_congr rfl fun k _ => ?_
  have hl : lidx_main_v45 (ix2 e j) k = ix2 e k := by
    funext a; match a with | ⟨0, _⟩ => rfl | ⟨1, _⟩ => rfl
  have hr : ridx_main_v45 (ix2 e j) k = ix2 k j := by
    funext a; match a with | ⟨0, _⟩ => rfl | ⟨1, _⟩ => rfl
  rw [hl, hr, v44_at]

/-- The first bias, spread over the edges, at (e, j) is its entry j. -/
theorem v47_at (e : Fin 300000) (j : Fin 256) : val_main_v47 (F := Ideal) x3 (ix2 e j) = x3 (ix1 j) := by
  rw [val_main_v47_apply, val_main_v46_apply]
  exact congrArg x3 (funext fun a => by match a with | ⟨0, _⟩ => rfl)

/-- The running mean, spread over the edges, at (e, j) is its entry j. -/
theorem v50_at (e : Fin 300000) (j : Fin 256) : val_main_v50 (F := Ideal) x6 (ix2 e j) = x6 (ix1 j) := by
  rw [val_main_v50_apply, val_main_v49_apply]
  exact congrArg x6 (funext fun a => by match a with | ⟨0, _⟩ => rfl)

/-- The normalising factor, spread over the edges, at (e, j): the reciprocal square root of variance j plus ε. -/
theorem v56_at (e : Fin 300000) (j : Fin 256) :
    val_main_v56 (F := Ideal) x7 (ix2 e j) = Ideal.rsqrt (x7 (ix1 j) + Ideal.ofBits .f32 0x3727C5AC#32) := by
  rw [val_main_v56_apply, val_main_v55_apply, val_main_v54_apply, val_main_v53_apply, val_main_v52_apply,
    val_main_cst_3_apply]
  have h : idx_main_v55 (idx_main_v56 (ix2 e j)) = ix1 j := funext fun a => by match a with | ⟨0, _⟩ => rfl
  rw [h]
  rfl

/-- The scale, spread over the edges, at (e, j) is its entry j. -/
theorem v59_at (e : Fin 300000) (j : Fin 256) : val_main_v59 (F := Ideal) x4 (ix2 e j) = x4 (ix1 j) := by
  rw [val_main_v59_apply, val_main_v58_apply]
  exact congrArg x4 (funext fun a => by match a with | ⟨0, _⟩ => rfl)

/-- The shift, spread over the edges, at (e, j) is its entry j. -/
theorem v62_at (e : Fin 300000) (j : Fin 256) : val_main_v62 (F := Ideal) x5 (ix2 e j) = x5 (ix1 j) := by
  rw [val_main_v62_apply, val_main_v61_apply]
  exact congrArg x5 (funext fun a => by match a with | ⟨0, _⟩ => rfl)

/-- The normalised, scaled and shifted affine image at (e, j), before clipping. -/
theorem v63_at (e : Fin 300000) (j : Fin 256) :
    val_main_v63 (F := Ideal) x0 x1 x2 x3 x4 x5 x6 x7 (ix2 e j)
      = (((((∑ k : Fin 256, val_main_v18 (F := Ideal) x0 x1 (ix2 e (Cert.EdgeMlp.rollCol k)) * x2 (ix2 k j)) + x3 (ix1 j)) - x6 (ix1 j))
          * Ideal.rsqrt (x7 (ix1 j) + Ideal.ofBits .f32 0x3727C5AC#32)) * x4 (ix1 j)) + x5 (ix1 j) := by
  rw [val_main_v63_apply, val_main_v60_apply, val_main_v57_apply, val_main_v51_apply, val_main_v48_apply,
    v45_at, v47_at, v50_at, v56_at, v59_at, v62_at]
  rfl

/-- The clipped value at (e, j) is hidden unit j on the rolled features's row e. -/
theorem v64_at (e : Fin 300000) (j : Fin 256) :
    val_main_v64 (F := Ideal) x0 x1 x2 x3 x4 x5 x6 x7 (ix2 e j)
      = Cert.EdgeMlp.hidden ⟨x2, x3, x4, x5, x6, x7, x8, x9⟩ (fun k => val_main_v18 (F := Ideal) x0 x1 (ix2 e (Cert.EdgeMlp.rollCol k))) j := by
  rw [val_main_v64_apply, v63_at, val_main_call2_v0_apply, val_main_call2_cst_apply]
  rfl

/-- The flattened second affine image at e is the score of the rolled features's row e. -/
theorem v69_at (e : Fin 300000) :
    val_main_v69 (F := Ideal) x0 x1 x2 x3 x4 x5 x6 x7 x8 x9 (ix1 e)
      = Cert.EdgeMlp.score ⟨x2, x3, x4, x5, x6, x7, x8, x9⟩ (fun k => val_main_v18 (F := Ideal) x0 x1 (ix2 e (Cert.EdgeMlp.rollCol k))) := by
  rw [val_main_v69_apply, val_main_v68_apply, val_main_v65_apply, val_main_v67_apply, val_main_v66_apply]
  have hb : idx_main_v66 (idx_main_v67 (idx_main_v69 (ix1 e))) = ix1 (0 : Fin 1) :=
    funext fun a => by match a with | ⟨0, _⟩ => rfl
  have hs : (∑ k : Fin 256, val_main_v64 (F := Ideal) x0 x1 x2 x3 x4 x5 x6 x7 (lidx_main_v65 (idx_main_v69 (ix1 e)) k)
        * x8 (ridx_main_v65 (idx_main_v69 (ix1 e)) k))
      = ∑ j : Fin 256, Cert.EdgeMlp.hidden ⟨x2, x3, x4, x5, x6, x7, x8, x9⟩ (fun k => val_main_v18 (F := Ideal) x0 x1 (ix2 e (Cert.EdgeMlp.rollCol k))) j * x8 (ix2 j (0 : Fin 1)) := by
    refine Finset.sum_congr rfl fun k _ => ?_
    have hl : lidx_main_v65 (idx_main_v69 (ix1 e)) k = ix2 e k := by
      funext a; match a with | ⟨0, _⟩ => exact Fin.ext (Nat.div_one _) | ⟨1, _⟩ => rfl
    have hr : ridx_main_v65 (idx_main_v69 (ix1 e)) k = ix2 k (0 : Fin 1) := by
      funext a; match a with | ⟨0, _⟩ => rfl | ⟨1, _⟩ => rfl
    rw [hl, hr, v64_at x0 x1 x2 x3 x4 x5 x6 x7 x8 x9]
  rw [hs, hb]
  rfl

/-! ### The mean of the two scores -/

/-- Half the sum of the two scores at e. -/
theorem v72_at (e : Fin 300000) :
    val_main_v72 (F := Ideal) x0 x1 x2 x3 x4 x5 x6 x7 x8 x9 (ix1 e)
      = (Cert.EdgeMlp.score ⟨x2, x3, x4, x5, x6, x7, x8, x9⟩ (fun k => val_main_v18 (F := Ideal) x0 x1 (ix2 e k))
          + Cert.EdgeMlp.score ⟨x2, x3, x4, x5, x6, x7, x8, x9⟩ (fun k => val_main_v18 (F := Ideal) x0 x1 (ix2 e (Cert.EdgeMlp.rollCol k))))
        * Ideal.ofBits .f32 0x3F000000#32 := by
  rw [val_main_v72_apply, val_main_v71_apply, val_main_cst_4_apply, val_main_v70_apply, v43_at, v69_at]
  rfl

end Stages

/-- The reference's last stage at edge e is the edge value of row e of its concatenated gathers. -/
theorem result_apply (x0 : (⟨S50000x128, .f32⟩ : BufTy).Contents (Elt Ideal)) (x1 : (⟨S2x300000, .i32⟩ : BufTy).Contents (Elt Ideal))
    (x2 : (⟨S256x256, .f32⟩ : BufTy).Contents (Elt Ideal)) (x3 x4 x5 x6 x7 : (⟨S256, .f32⟩ : BufTy).Contents (Elt Ideal))
    (x8 : (⟨S256x1, .f32⟩ : BufTy).Contents (Elt Ideal)) (x9 : (⟨S1, .f32⟩ : BufTy).Contents (Elt Ideal)) (e : Fin 300000) :
    val_main_v78 (F := Ideal) x0 x1 x2 x3 x4 x5 x6 x7 x8 x9 (ix1 e)
      = Cert.EdgeMlp.edgeProb ⟨x2, x3, x4, x5, x6, x7, x8, x9⟩ (fun k => val_main_v18 (F := Ideal) x0 x1 (ix2 e k)) := by
  rw [val_main_v78_apply, val_main_v77_apply, val_main_cst_6_apply, val_main_v76_apply, val_main_v75_apply, val_main_cst_5_apply,
    val_main_v74_apply, val_main_v73_apply, v72_at]
  show Ideal.div (Ideal.ofBits .f32 0x3F800000#32) (Ideal.ofBits .f32 0x3F800000#32 + Ideal.exp (-_)) = _
  rw [one_word]
  rfl

end Cert.ReferenceIdeal.RefValue

end
-- ==== Proof.lean ====
/-
  The certificate's claims. Both programs gather the two endpoint rows of every edge and put them side by
  side, with the same host operations; on that [300000, 256] feature array the kernel runs, block of 3000
  rows by block, the two-layer perceptron with its running-statistics normalisation on the row and on the
  row rolled by 16, averages the two scores and applies the logistic; the reference does the same on the
  whole array. On the extended reals the two results are one function of the arguments, entry by entry:
  a change of float format is the identity, a matrix product into a zero accumulator and the host's
  dot_general are the same sum, the kernel's rotation by 16 and the reference's two slices joined read the
  same column (k − 16) mod 256, and the logistic is 1 / (1 + e^(−x)) on both sides. No law that needs
  finite operands is used, so the precondition is not opened.
-/
import proofs.«131921_j90649579749888_1_alg».proof.Defs
import proofs.«131921_j90649579749888_1_alg».proof.Proof.Gen.Kernel
import proofs.«131921_j90649579749888_1_alg».proof.Proof.Gen.Kernel.Frame
import proofs.«131921_j90649579749888_1_alg».proof.Proof.Gen.KernelIdeal
import proofs.«131921_j90649579749888_1_alg».proof.Proof.Gen.KernelIdeal.Frame
import proofs.«131921_j90649579749888_1_alg».proof.Proof.Gen.ReferenceIdeal
import proofs.«131921_j90649579749888_1_alg».proof.Proof.RefRun
import proofs.«131921_j90649579749888_1_alg».proof.Proof.RefRead
import proofs.«131921_j90649579749888_1_alg».proof.Proof.Gen.Pre_finite_inputs
import proofs.«131921_j90649579749888_1_alg».proof.Proof.EdgeMlp
import proofs.«131921_j90649579749888_1_alg».proof.Proof.KernelArray
import proofs.«131921_j90649579749888_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The kernel's feature array and the reference's are the same operations of the node table and the edge list. -/
theorem feat_eq {F : FTy → Type} [FloatOps F] (x0 : (⟨Cert.KernelIdeal.S50000x128, .f32⟩ : BufTy).Contents (Elt F))
    (x1 : (⟨Cert.KernelIdeal.S2x300000, .i32⟩ : BufTy).Contents (Elt F)) :
    Cert.KernelIdeal.Array.edgeFeat x0 x1 = Cert.ReferenceIdeal.ReadP.val_main_v18 (F := F) x0 x1 := by
  unfold Cert.KernelIdeal.Array.edgeFeat Cert.ReferenceIdeal.ReadP.val_main_v18 Cert.ReferenceIdeal.ReadP.val_main_v10
    Cert.ReferenceIdeal.ReadP.val_main_v17 Cert.ReferenceIdeal.ReadP.val_main_v9 Cert.ReferenceIdeal.ReadP.val_main_v16
    Cert.ReferenceIdeal.ReadP.val_main_v8 Cert.ReferenceIdeal.ReadP.val_main_v15 Cert.ReferenceIdeal.ReadP.val_main_v7
    Cert.ReferenceIdeal.ReadP.val_main_v14 Cert.ReferenceIdeal.ReadP.val_main_v5 Cert.ReferenceIdeal.ReadP.val_main_v12
    Cert.ReferenceIdeal.ReadP.val_main_v6 Cert.ReferenceIdeal.ReadP.val_main_v13 Cert.ReferenceIdeal.ReadP.val_main_v4
    Cert.ReferenceIdeal.ReadP.val_main_v11 Cert.ReferenceIdeal.ReadP.val_main_v1 Cert.ReferenceIdeal.ReadP.val_main_v3
    Cert.ReferenceIdeal.ReadP.val_main_v0 Cert.ReferenceIdeal.ReadP.val_main_v2 Cert.ReferenceIdeal.ReadP.val_main_c
    Cert.ReferenceIdeal.ReadP.val_main_c_0 Cert.ReferenceIdeal.ReadP.val_main_c_1 Cert.ReferenceIdeal.ReadP.val_main_c_2
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: there is no ledger entry to restate. -/
theorem preserves : Cert.preserves_Kernel_KernelIdeal := trivial

/-- From memories agreeing on the arguments both programs end with entry e of the result at the edge value of
    edge e's two gathered rows under the arguments' parameters. -/
theorem algebraic : Cert.algebraic_KernelIdeal_ReferenceIdeal := by
  intro m ρ m' ρ' _ hagree
  refine ⟨fun c => Cert.KernelIdeal.Array.result m c, Cert.KernelIdeal.Array.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [Cert.ReferenceIdeal.ReadP.val_main_v78_eq, h0, h1, h2, h3, h4, h5, h6, h7, h8, h9]
  funext i
  obtain ⟨e, rfl⟩ : ∃ e : Fin 300000, i = ix1 e := ⟨i 0, eq_ix1 i⟩
  rw [Cert.ReferenceIdeal.RefValue.result_apply]
  unfold Cert.KernelIdeal.Array.result Cert.KernelIdeal.Array.argParams
  exact congrArg (Cert.EdgeMlp.edgeProb _) (funext fun k => (congrFun (feat_eq _ _) (ix2 e k)).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
